-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S128 .f32) (main_arg6 : FVec F S128x32 .f32) (main_arg7 : FVec F S32 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg6
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) (main_arg6 : FVec F S128x32 .f32) (main_arg7 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩

abbrev nBuf : Space → Nat
  | .hbm => 117
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x32, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x32, .f32⟩
  | .hbm, ⟨107, _⟩ => ⟨S850000x1, .f32⟩
  | .hbm, ⟨108, _⟩ => ⟨S850000x32, .f32⟩
  | .hbm, ⟨109, _⟩ => ⟨S850000x32, .f32⟩
  | .hbm, ⟨110, _⟩ => ⟨S_, .f32⟩
  | .hbm, ⟨111, _⟩ => ⟨S50000x32, .f32⟩
  | .hbm, ⟨112, _⟩ => ⟨S850000x1, .i32⟩
  | .hbm, ⟨113, _⟩ => ⟨S50000x32, .f32⟩
  | .hbm, ⟨114, _⟩ => ⟨S1x32, .f32⟩
  | .hbm, ⟨115, _⟩ => ⟨S50000x32, .f32⟩
  | .hbm, ⟨116, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x32, .f32⟩
  | .local _ .vmem, ⟨13, _⟩ => ⟨S5000x32, .f32⟩
  | .local _ .vmem, ⟨14, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x32_S5000x32_1_0_0_1_n_n_wf : DotDims.WF S5000x128 S128x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x32, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x32, .f32⟩
  | .hbm, ⟨107, _⟩ => ⟨S850000x1, .f32⟩
  | .hbm, ⟨108, _⟩ => ⟨S850000x32, .f32⟩
  | .hbm, ⟨109, _⟩ => ⟨S850000x32, .f32⟩
  | .hbm, ⟨110, _⟩ => ⟨S_, .f32⟩
  | .hbm, ⟨111, _⟩ => ⟨S50000x32, .f32⟩
  | .hbm, ⟨112, _⟩ => ⟨S850000x1, .i32⟩
  | .hbm, ⟨113, _⟩ => ⟨S50000x32, .f32⟩
  | .hbm, ⟨114, _⟩ => ⟨S1x32, .f32⟩
  | .hbm, ⟨115, _⟩ => ⟨S50000x32, .f32⟩
  | .hbm, ⟨116, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x32_S50000x32_1_0_0_1_n_n_wf : DotDims.WF S50000x128 S128x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.Rows0.lean ====
/-
  Region 0 of the kernel's program at the ideal values: the rows of a matrix product.

  The region's body multiplies one block of 5000 rows of the left array (50000 x 128) by the whole right array
  (128 x 256) into a zero accumulator; rounding the factors to bf16 is the identity on the extended reals, so the
  block it stores has entry (p, q) equal to the sum over k < 128 of left-block (p, k) * right (k, q). Point t of the
  ten writes that block back as rows 5000 t .. 5000 t + 4999 of the output array. A row of a product depends only
  on that row of the left factor, so block t of the product of the WHOLE arrays is the product of block t; the ten
  blocks tile the 50000 rows, hence the output array ends holding the product of the two arrays as the region found
  them: entry (r, q) is the sum over k < 128 of left (r, k) * right (k, q).
-/
import proofs.«111012_j35124242547073_1_alg».proof.Proof.Gen.KernelIdeal.Frame
import proofs.«111012_j35124242547073_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Rows0

open Cert.KernelIdeal Cert.KernelIdeal.Gen
open Idealize.ShloMosaic Idealize.ShloMosaic.TcCoe Idealize.SL.Sem
open Idealize.ShloMosaic.Pipeline (Dat)

/-! ## The block product's operand indices: output entry (p, q) and contraction index k read left (p, k), right (k, q) -/

theorem lhs_row (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_contr (j : S5000x256.Idx) (q : dot_S5000x128_S128x256_S5000x256_1_0_0_1_n_n.contr.Idx) :
    (dot_S5000x128_S128x256_S5000x256_1_0_0_1_n_n.lhsIdx j q 1).val = (q ⟨0, by decide⟩).val :=
  dot_S5000x128_S128x256_S5000x256_1_0_0_1_n_n.lhsIdx_val_of_single rfl j q
theorem rhs_contr (j : S5000x256.Idx) (q : dot_S5000x128_S128x256_S5000x256_1_0_0_1_n_n.contr.Idx) :
    (dot_S5000x128_S128x256_S5000x256_1_0_0_1_n_n.rhsIdx j q 0).val = (q ⟨0, by decide⟩).val :=
  dot_S5000x128_S128x256_S5000x256_1_0_0_1_n_n.rhsIdx_val_of_single rfl j q
theorem rhs_col (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Row p of the left block, column k. -/
abbrev lrow (j : S5000x256.Idx) (k : Fin 128) : S5000x128.Idx := fun a => match a with
  | ⟨0, _⟩ => ⟨(j 0).val, (j 0).isLt⟩
  | ⟨1, _⟩ => ⟨k.val, k.isLt⟩
/-- Row k of the right array, column q. -/
abbrev rcol (j : S5000x256.Idx) (k : Fin 128) : S128x256.Idx := fun a => match a with
  | ⟨0, _⟩ => ⟨k.val, k.isLt⟩
  | ⟨1, _⟩ => ⟨(j 1).val, (j 1).isLt⟩

/-- What the body stores, entry by entry: the plain sum of products (the accumulator is zero, the two roundings
    are the identity at the ideal values). -/
theorem pay_apply (x0 : (⟨S5000x128, .f32⟩ : BufTy).Contents (Elt Ideal)) (x1 : (⟨S128x256, .f32⟩ : BufTy).Contents (Elt Ideal)) (j : S5000x256.Idx) :
    k0_pay1 (F := Ideal) x0 x1 j = ∑ k : Fin 128, x0 (lrow j k) * x1 (rcol j k) := by
  unfold k0_pay1
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx j ((ValueIdx.contrEquiv1 dot_S5000x128_S128x256_S5000x256_1_0_0_1_n_n 128 rfl rfl).symm k) = lrow j k := funext fun a => Fin.ext (by
    match a with
    | ⟨0, _⟩ => exact lhs_row _ _
    | ⟨1, _⟩ => exact (lhs_contr _ _).trans hk)
  have er : dot_S5000x128_S128x256_S5000x256_1_0_0_1_n_n.rhsIdx j ((ValueIdx.contrEquiv1 dot_S5000x128_S128x256_S5000x256_1_0_0_1_n_n 128 rfl rfl).symm k) = rcol j k := funext fun a => Fin.ext (by
    match a with
    | ⟨0, _⟩ => exact (rhs_contr _ _).trans hk
    | ⟨1, _⟩ => exact rhs_col _ _)
  rw [el, er]
  rfl

/-! ## The product of the whole arrays, entry by entry -/

theorem whole_lhs_row (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
theorem whole_lhs_contr (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem whole_rhs_contr (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem whole_rhs_col (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- Row r of the left array, column k. -/
abbrev wrow (i : S50000x256.Idx) (k : Fin 128) : S50000x128.Idx := fun a => match a with
  | ⟨0, _⟩ => ⟨(i 0).val, (i 0).isLt⟩
  | ⟨1, _⟩ => ⟨k.val, k.isLt⟩
/-- Row k of the right array, column q. -/
abbrev wcol (i : S50000x256.Idx) (k : Fin 128) : S128x256.Idx := fun a => match a with
  | ⟨0, _⟩ => ⟨k.val, k.isLt⟩
  | ⟨1, _⟩ => ⟨(i 1).val, (i 1).isLt⟩

/-- The product of the two whole arrays (the host's contraction of axis 1 with axis 0), as the reference states it. -/
abbrev prod (a : (⟨S50000x128, .f32⟩ : BufTy).Contents (Elt Ideal)) (b : (⟨S128x256, .f32⟩ : BufTy).Contents (Elt Ideal)) :
    (⟨S50000x256, .f32⟩ : BufTy).Contents (Elt Ideal) :=
  Host.dotGeneral (F := Ideal) (φ₁ := .f32) (φ₂ := .f32) Cert.ReferenceIdeal.dot_S50000x128_S128x256_S50000x256_1_0_0_1_n_n none a b

theorem prod_apply (a : (⟨S50000x128, .f32⟩ : BufTy).Contents (Elt Ideal)) (b : (⟨S128x256, .f32⟩ : BufTy).Contents (Elt Ideal)) (i : S50000x256.Idx) :
    prod a b i = ∑ k : Fin 128, a (wrow i k) * b (wcol i k) := by
  unfold prod
  simp only [Host.dotGeneral]
  rw [Ideal.dotGeneral_apply, ← Equiv.sum_comp (ValueIdx.contrEquiv1 Cert.ReferenceIdeal.dot_S50000x128_S128x256_S50000x256_1_0_0_1_n_n 128 rfl rfl).symm]
  refine Finset.sum_congr rfl fun k _ => ?_
  have hk := ValueIdx.contrEquiv1_symm_val Cert.ReferenceIdeal.dot_S50000x128_S128x256_S50000x256_1_0_0_1_n_n 128 rfl rfl k
  have el : Cert.ReferenceIdeal.dot_S50000x128_S128x256_S50000x256_1_0_0_1_n_n.lhsIdx i ((ValueIdx.contrEquiv1 Cert.ReferenceIdeal.dot_S50000x128_S128x256_S50000x256_1_0_0_1_n_n 128 rfl rfl).symm k) = wrow i k := funext fun a => Fin.ext (by
    match a with
    | ⟨0, _⟩ => exact whole_lhs_row _ _
    | ⟨1, _⟩ => exact (whole_lhs_contr _ _).trans hk)
  have er : Cert.ReferenceIdeal.dot_S50000x128_S128x256_S50000x256_1_0_0_1_n_n.rhsIdx i ((ValueIdx.contrEquiv1 Cert.ReferenceIdeal.dot_S50000x128_S128x256_S50000x256_1_0_0_1_n_n 128 rfl rfl).symm k) = wcol i k := funext fun a => Fin.ext (by
    match a with
    | ⟨0, _⟩ => exact (whole_rhs_contr _ _).trans hk
    | ⟨1, _⟩ => exact whole_rhs_col _ _)
  rw [el, er]

/-! ## Block t of the product is the product of block t -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the left block and the output block sit at the same row block and
    at column block 0; the right array is always its one block (0, 0); the row block is below 10. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block below 10 is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT t WRITES BACK is block t of the product of the two arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨e0, e1, e2, e3, e4, e5⟩ := idx_facts t
  funext y
  show k0_pay1 (F := Ideal) (iblk0 V c 0 t) (iblk0 V c 1 t) y = prod (V c main_arg0) (V c main_arg2) (((cfg0.win 2).blk t).view.emb y)
  refine (pay_apply (iblk0 V c 0 t) (iblk0 V c 1 t) y).trans ((prod_apply (V c main_arg0) (V c main_arg2) (((cfg0.win 2).blk t).view.emb y)).trans ?_).symm
  refine Finset.sum_congr rfl fun k _ => ?_
  have hl : ((cfg0.win 0).blk t).view.emb (lrow y k) = wrow (((cfg0.win 2).blk t).view.emb y) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have hr : ((cfg0.win 1).blk t).view.emb (rcol y k) = wcol (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 256 + 1 * (y 1).val = win0_2.index t (1 : Fin 2) * 256 + 1 * (y 1).val; omega
  rw [← hl, ← hr]
  rfl

/-- An index of the output array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- The ten blocks tile the rows: row r lies in the block of the point whose row block is r / 5000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE OUTPUT ARRAY after the region: the product of the left and right arrays as the region found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Rows0

end
-- ==== Proof.Rows1.lean ====
/-
  Region 1 of the kernel's program at the ideal values: the rows of a matrix product.

  The region's body multiplies one block of 5000 rows of the left array (50000 x 256) by the whole right array
  (256 x 128) into a zero accumulator; rounding the factors to bf16 is the identity on the extended reals, so the
  block it stores has entry (p, q) equal to the sum over k < 256 of left-block (p, k) * right (k, q). Point t of the
  ten writes that block back as rows 5000 t .. 5000 t + 4999 of the output array. A row of a product depends only
  on that row of the left factor, so block t of the product of the WHOLE arrays is the product of block t; the ten
  blocks tile the 50000 rows, hence the output array ends holding the product of the two arrays as the region found
  them: entry (r, q) is the sum over k < 256 of left (r, k) * right (k, q).
-/
import proofs.«111012_j35124242547073_1_alg».proof.Proof.Gen.KernelIdeal.Frame
import proofs.«111012_j35124242547073_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Rows1

open Cert.KernelIdeal Cert.KernelIdeal.Gen
open Idealize.ShloMosaic Idealize.ShloMosaic.TcCoe Idealize.SL.Sem
open Idealize.ShloMosaic.Pipeline (Dat)

/-! ## The block product's operand indices: output entry (p, q) and contraction index k read left (p, k), right (k, q) -/

theorem lhs_row (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_contr (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs_contr (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs_col (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Row p of the left block, column k. -/
abbrev lrow (j : S5000x128.Idx) (k : Fin 256) : S5000x256.Idx := fun a => match a with
  | ⟨0, _⟩ => ⟨(j 0).val, (j 0).isLt⟩
  | ⟨1, _⟩ => ⟨k.val, k.isLt⟩
/-- Row k of the right array, column q. -/
abbrev rcol (j : S5000x128.Idx) (k : Fin 256) : S256x128.Idx := fun a => match a with
  | ⟨0, _⟩ => ⟨k.val, k.isLt⟩
  | ⟨1, _⟩ => ⟨(j 1).val, (j 1).isLt⟩

/-- What the body stores, entry by entry: the plain sum of products (the accumulator is zero, the two roundings
    are the identity at the ideal values). -/
theorem pay_apply (x0 : (⟨S5000x256, .f32⟩ : BufTy).Contents (Elt Ideal)) (x1 : (⟨S256x128, .f32⟩ : BufTy).Contents (Elt Ideal)) (j : S5000x128.Idx) :
    k1_pay1 (F := Ideal) x0 x1 j = ∑ k : Fin 256, x0 (lrow j k) * x1 (rcol j k) := by
  unfold k1_pay1
  rw [shapeCast_self]
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lrow j k := funext fun a => Fin.ext (by
    match a with
    | ⟨0, _⟩ => exact lhs_row _ _
    | ⟨1, _⟩ => exact (lhs_contr _ _).trans hk)
  have er : dot_S5000x256_S256x128_S5000x128_1_0_0_1_n_n.rhsIdx j ((ValueIdx.contrEquiv1 dot_S5000x256_S256x128_S5000x128_1_0_0_1_n_n 256 rfl rfl).symm k) = rcol j k := funext fun a => Fin.ext (by
    match a with
    | ⟨0, _⟩ => exact (rhs_contr _ _).trans hk
    | ⟨1, _⟩ => exact rhs_col _ _)
  rw [el, er]
  rfl

/-! ## The product of the whole arrays, entry by entry -/

theorem whole_lhs_row (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
theorem whole_lhs_contr (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem whole_rhs_contr (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem whole_rhs_col (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- Row r of the left array, column k. -/
abbrev wrow (i : S50000x128.Idx) (k : Fin 256) : S50000x256.Idx := fun a => match a with
  | ⟨0, _⟩ => ⟨(i 0).val, (i 0).isLt⟩
  | ⟨1, _⟩ => ⟨k.val, k.isLt⟩
/-- Row k of the right array, column q. -/
abbrev wcol (i : S50000x128.Idx) (k : Fin 256) : S256x128.Idx := fun a => match a with
  | ⟨0, _⟩ => ⟨k.val, k.isLt⟩
  | ⟨1, _⟩ => ⟨(i 1).val, (i 1).isLt⟩

/-- The product of the two whole arrays (the host's contraction of axis 1 with axis 0), as the reference states it. -/
abbrev prod (a : (⟨S50000x256, .f32⟩ : BufTy).Contents (Elt Ideal)) (b : (⟨S256x128, .f32⟩ : BufTy).Contents (Elt Ideal)) :
    (⟨S50000x128, .f32⟩ : BufTy).Contents (Elt Ideal) :=
  Host.dotGeneral (F := Ideal) (φ₁ := .f32) (φ₂ := .f32) Cert.ReferenceIdeal.dot_S50000x256_S256x128_S50000x128_1_0_0_1_n_n none a b

theorem prod_apply (a : (⟨S50000x256, .f32⟩ : BufTy).Contents (Elt Ideal)) (b : (⟨S256x128, .f32⟩ : BufTy).Contents (Elt Ideal)) (i : S50000x128.Idx) :
    prod a b i = ∑ k : Fin 256, a (wrow i k) * b (wcol i k) := by
  unfold prod
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = wrow i k := funext fun a => Fin.ext (by
    match a with
    | ⟨0, _⟩ => exact whole_lhs_row _ _
    | ⟨1, _⟩ => exact (whole_lhs_contr _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = wcol i k := funext fun a => Fin.ext (by
    match a with
    | ⟨0, _⟩ => exact (whole_rhs_contr _ _).trans hk
    | ⟨1, _⟩ => exact whole_rhs_col _ _)
  rw [el, er]

/-! ## Block t of the product is the product of block t -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the left block and the output block sit at the same row block and
    at column block 0; the right array is always its one block (0, 0); the row block is below 10. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block below 10 is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- WHAT POINT t WRITES BACK is block t of the product of the two arrays as the region finds them. -/
theorem flushed_eq (c : Dev nD) (t : Fin cfg1.N) :
    (dat1 V c).flushed 2 t = ((cfg1.win 2).blk t).view.read (Elt Ideal) (prod (V c main_v49) (V c main_arg4)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  obtain ⟨e0, e1, e2, e3, e4, e5⟩ := idx_facts t
  funext y
  show k1_pay1 (F := Ideal) (iblk1 V c 0 t) (iblk1 V c 1 t) y = prod (V c main_v49) (V c main_arg4) (((cfg1.win 2).blk t).view.emb y)
  refine (pay_apply (iblk1 V c 0 t) (iblk1 V c 1 t) y).trans ((prod_apply (V c main_v49) (V c main_arg4) (((cfg1.win 2).blk t).view.emb y)).trans ?_).symm
  refine Finset.sum_congr rfl fun k _ => ?_
  have hl : ((cfg1.win 0).blk t).view.emb (lrow y k) = wrow (((cfg1.win 2).blk t).view.emb y) k := by
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 256 + 1 * k.val = k.val; omega
  have hr : ((cfg1.win 1).blk t).view.emb (rcol y k) = wcol (((cfg1.win 2).blk t).view.emb y) k := by
    funext a; apply Fin.ext
    match a with
    | ⟨0, _⟩ => show win1_1.index t (0 : Fin 2) * 256 + 1 * k.val = k.val; omega
    | ⟨1, _⟩ => show win1_1.index t (1 : Fin 2) * 128 + 1 * (y 1).val = win1_2.index t (1 : Fin 2) * 128 + 1 * (y 1).val; omega
  rw [← hl, ← hr]
  rfl

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- The ten blocks tile the rows: row r lies in the block of the point whose row block is r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: the product of the left and right arrays as the region found them. -/
theorem final (c : Dev nD) : (dat1 V c).arrAt 2 cfg1.N = prod (V c main_v49) (V c main_arg4) :=
  (dat1 V c).arrAt_eq_of_cover 2 (prod (V c main_v49) (V c main_arg4)) (fun t _ => flushed_eq V c t) cover

end Cert.KernelIdeal.Rows1

end
-- ==== Proof.Rows2.lean ====
/-
  Region 2 of the kernel's program at the ideal values: the rows of a matrix product.

  The region's body multiplies one block of 5000 rows of the left array (50000 x 128) by the whole right array
  (128 x 32) into a zero accumulator; rounding the factors to bf16 is the identity on the extended reals, so the
  block it stores has entry (p, q) equal to the sum over k < 128 of left-block (p, k) * right (k, q). Point t of the
  ten writes that block back as rows 5000 t .. 5000 t + 4999 of the output array. A row of a product depends only
  on that row of the left factor, so block t of the product of the WHOLE arrays is the product of block t; the ten
  blocks tile the 50000 rows, hence the output array ends holding the product of the two arrays as the region found
  them: entry (r, q) is the sum over k < 128 of left (r, k) * right (k, q).
-/
import proofs.«111012_j35124242547073_1_alg».proof.Proof.Gen.KernelIdeal.Frame
import proofs.«111012_j35124242547073_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

namespace Cert.KernelIdeal.Rows2

open Cert.KernelIdeal Cert.KernelIdeal.Gen
open Idealize.ShloMosaic Idealize.ShloMosaic.TcCoe Idealize.SL.Sem
open Idealize.ShloMosaic.Pipeline (Dat)

/-! ## The block product's operand indices: output entry (p, q) and contraction index k read left (p, k), right (k, q) -/

theorem lhs_row (j : S5000x32.Idx) (q : dot_S5000x128_S128x32_S5000x32_1_0_0_1_n_n.contr.Idx) :
    (dot_S5000x128_S128x32_S5000x32_1_0_0_1_n_n.lhsIdx j q 0).val = (j 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs_contr (j : S5000x32.Idx) (q : dot_S5000x128_S128x32_S5000x32_1_0_0_1_n_n.contr.Idx) :
    (dot_S5000x128_S128x32_S5000x32_1_0_0_1_n_n.lhsIdx j q 1).val = (q ⟨0, by decide⟩).val :=
  dot_S5000x128_S128x32_S5000x32_1_0_0_1_n_n.lhsIdx_val_of_single rfl j q
theorem rhs_contr (j : S5000x32.Idx) (q : dot_S5000x128_S128x32_S5000x32_1_0_0_1_n_n.contr.Idx) :
    (dot_S5000x128_S128x32_S5000x32_1_0_0_1_n_n.rhsIdx j q 0).val = (q ⟨0, by decide⟩).val :=
  dot_S5000x128_S128x32_S5000x32_1_0_0_1_n_n.rhsIdx_val_of_single rfl j q
theorem rhs_col (j : S5000x32.Idx) (q : dot_S5000x128_S128x32_S5000x32_1_0_0_1_n_n.contr.Idx) :
    (dot_S5000x128_S128x32_S5000x32_1_0_0_1_n_n.rhsIdx j q 1).val = (j 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- Row p of the left block, column k. -/
abbrev lrow (j : S5000x32.Idx) (k : Fin 128) : S5000x128.Idx := fun a => match a with
  | ⟨0, _⟩ => ⟨(j 0).val, (j 0).isLt⟩
  | ⟨1, _⟩ => ⟨k.val, k.isLt⟩
/-- Row k of the right array, column q. -/
abbrev rcol (j : S5000x32.Idx) (k : Fin 128) : S128x32.Idx := fun a => match a with
  | ⟨0, _⟩ => ⟨k.val, k.isLt⟩
  | ⟨1, _⟩ => ⟨(j 1).val, (j 1).isLt⟩

/-- What the body stores, entry by entry: the plain sum of products (the accumulator is zero, the two roundings
    are the identity at the ideal values). -/
theorem pay_apply (x0 : (⟨S5000x128, .f32⟩ : BufTy).Contents (Elt Ideal)) (x1 : (⟨S128x32, .f32⟩ : BufTy).Contents (Elt Ideal)) (j : S5000x32.Idx) :
    k2_pay1 (F := Ideal) x0 x1 j = ∑ k : Fin 128, x0 (lrow j k) * x1 (rcol j k) := by
  unfold k2_pay1
  rw [shapeCast_self]
  simp only [matmul]
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx j ((ValueIdx.contrEquiv1 dot_S5000x128_S128x32_S5000x32_1_0_0_1_n_n 128 rfl rfl).symm k) = lrow j k := funext fun a => Fin.ext (by
    match a with
    | ⟨0, _⟩ => exact lhs_row _ _
    | ⟨1, _⟩ => exact (lhs_contr _ _).trans hk)
  have er : dot_S5000x128_S128x32_S5000x32_1_0_0_1_n_n.rhsIdx j ((ValueIdx.contrEquiv1 dot_S5000x128_S128x32_S5000x32_1_0_0_1_n_n 128 rfl rfl).symm k) = rcol j k := funext fun a => Fin.ext (by
    match a with
    | ⟨0, _⟩ => exact (rhs_contr _ _).trans hk
    | ⟨1, _⟩ => exact rhs_col _ _)
  rw [el, er]
  rfl

/-! ## The product of the whole arrays, entry by entry -/

theorem whole_lhs_row (i : S50000x32.Idx) (q : Cert.ReferenceIdeal.dot_S50000x128_S128x32_S50000x32_1_0_0_1_n_n.contr.Idx) :
    (Cert.ReferenceIdeal.dot_S50000x128_S128x32_S50000x32_1_0_0_1_n_n.lhsIdx i q 0).val = (i 0).val := by
  unfold DotDims.lhsIdx
  rw [dif_neg (show ¬(0 : Fin S50000x128.rank) ∈ Cert.ReferenceIdeal.dot_S50000x128_S128x32_S50000x32_1_0_0_1_n_n.lhsBatch by decide), dif_pos (show (0 : Fin S50000x128.rank) ∈ Cert.ReferenceIdeal.dot_S50000x128_S128x32_S50000x32_1_0_0_1_n_n.lhsNonContracting by decide)]
  rfl
theorem whole_lhs_contr (i : S50000x32.Idx) (q : Cert.ReferenceIdeal.dot_S50000x128_S128x32_S50000x32_1_0_0_1_n_n.contr.Idx) :
    (Cert.ReferenceIdeal.dot_S50000x128_S128x32_S50000x32_1_0_0_1_n_n.lhsIdx i q 1).val = (q ⟨0, by decide⟩).val :=
  Cert.ReferenceIdeal.dot_S50000x128_S128x32_S50000x32_1_0_0_1_n_n.lhsIdx_val_of_single rfl i q
theorem whole_rhs_contr (i : S50000x32.Idx) (q : Cert.ReferenceIdeal.dot_S50000x128_S128x32_S50000x32_1_0_0_1_n_n.contr.Idx) :
    (Cert.ReferenceIdeal.dot_S50000x128_S128x32_S50000x32_1_0_0_1_n_n.rhsIdx i q 0).val = (q ⟨0, by decide⟩).val :=
  Cert.ReferenceIdeal.dot_S50000x128_S128x32_S50000x32_1_0_0_1_n_n.rhsIdx_val_of_single rfl i q
theorem whole_rhs_col (i : S50000x32.Idx) (q : Cert.ReferenceIdeal.dot_S50000x128_S128x32_S50000x32_1_0_0_1_n_n.contr.Idx) :
    (Cert.ReferenceIdeal.dot_S50000x128_S128x32_S50000x32_1_0_0_1_n_n.rhsIdx i q 1).val = (i 1).val := by
  unfold DotDims.rhsIdx
  rw [dif_neg (show ¬(1 : Fin S128x32.rank) ∈ Cert.ReferenceIdeal.dot_S50000x128_S128x32_S50000x32_1_0_0_1_n_n.rhsBatch by decide), dif_pos (show (1 : Fin S128x32.rank) ∈ Cert.ReferenceIdeal.dot_S50000x128_S128x32_S50000x32_1_0_0_1_n_n.rhsNonContracting by decide)]
  rfl

/-- Row r of the left array, column k. -/
abbrev wrow (i : S50000x32.Idx) (k : Fin 128) : S50000x128.Idx := fun a => match a with
  | ⟨0, _⟩ => ⟨(i 0).val, (i 0).isLt⟩
  | ⟨1, _⟩ => ⟨k.val, k.isLt⟩
/-- Row k of the right array, column q. -/
abbrev wcol (i : S50000x32.Idx) (k : Fin 128) : S128x32.Idx := fun a => match a with
  | ⟨0, _⟩ => ⟨k.val, k.isLt⟩
  | ⟨1, _⟩ => ⟨(i 1).val, (i 1).isLt⟩

/-- The product of the two whole arrays (the host's contraction of axis 1 with axis 0), as the reference states it. -/
abbrev prod (a : (⟨S50000x128, .f32⟩ : BufTy).Contents (Elt Ideal)) (b : (⟨S128x32, .f32⟩ : BufTy).Contents (Elt Ideal)) :
    (⟨S50000x32, .f32⟩ : BufTy).Contents (Elt Ideal) :=
  Host.dotGeneral (F := Ideal) (φ₁ := .f32) (φ₂ := .f32) Cert.ReferenceIdeal.dot_S50000x128_S128x32_S50000x32_1_0_0_1_n_n none a b

theorem prod_apply (a : (⟨S50000x128, .f32⟩ : BufTy).Contents (Elt Ideal)) (b : (⟨S128x32, .f32⟩ : BufTy).Contents (Elt Ideal)) (i : S50000x32.Idx) :
    prod a b i = ∑ k : Fin 128, a (wrow i k) * b (wcol i k) := by
  unfold prod
  simp only [Host.dotGeneral]
  rw [Ideal.dotGeneral_apply, ← Equiv.sum_comp (ValueIdx.contrEquiv1 Cert.ReferenceIdeal.dot_S50000x128_S128x32_S50000x32_1_0_0_1_n_n 128 rfl rfl).symm]
  refine Finset.sum_congr rfl fun k _ => ?_
  have hk := ValueIdx.contrEquiv1_symm_val Cert.ReferenceIdeal.dot_S50000x128_S128x32_S50000x32_1_0_0_1_n_n 128 rfl rfl k
  have el : Cert.ReferenceIdeal.dot_S50000x128_S128x32_S50000x32_1_0_0_1_n_n.lhsIdx i ((ValueIdx.contrEquiv1 Cert.ReferenceIdeal.dot_S50000x128_S128x32_S50000x32_1_0_0_1_n_n 128 rfl rfl).symm k) = wrow i k := funext fun a => Fin.ext (by
    match a with
    | ⟨0, _⟩ => exact whole_lhs_row _ _
    | ⟨1, _⟩ => exact (whole_lhs_contr _ _).trans hk)
  have er : Cert.ReferenceIdeal.dot_S50000x128_S128x32_S50000x32_1_0_0_1_n_n.rhsIdx i ((ValueIdx.contrEquiv1 Cert.ReferenceIdeal.dot_S50000x128_S128x32_S50000x32_1_0_0_1_n_n 128 rfl rfl).symm k) = wcol i k := funext fun a => Fin.ext (by
    match a with
    | ⟨0, _⟩ => exact (whole_rhs_contr _ _).trans hk
    | ⟨1, _⟩ => exact whole_rhs_col _ _)
  rw [el, er]

/-! ## Block t of the product is the product of block t -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the left block and the output block sit at the same row block and
    at column block 0; the right array is always its one block (0, 0); the row block is below 10. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block below 10 is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- WHAT POINT t WRITES BACK is block t of the product of the two arrays as the region finds them. -/
theorem flushed_eq (c : Dev nD) (t : Fin cfg2.N) :
    (dat2 V c).flushed 2 t = ((cfg2.win 2).blk t).view.read (Elt Ideal) (prod (V c main_v67) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x32) hz]
  obtain ⟨e0, e1, e2, e3, e4, e5⟩ := idx_facts t
  funext y
  show k2_pay1 (F := Ideal) (iblk2 V c 0 t) (iblk2 V c 1 t) y = prod (V c main_v67) (V c main_arg6) (((cfg2.win 2).blk t).view.emb y)
  refine (pay_apply (iblk2 V c 0 t) (iblk2 V c 1 t) y).trans ((prod_apply (V c main_v67) (V c main_arg6) (((cfg2.win 2).blk t).view.emb y)).trans ?_).symm
  refine Finset.sum_congr rfl fun k _ => ?_
  have hl : ((cfg2.win 0).blk t).view.emb (lrow y k) = wrow (((cfg2.win 2).blk t).view.emb y) k := by
    funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 128 + 1 * k.val = k.val; omega
  have hr : ((cfg2.win 1).blk t).view.emb (rcol y k) = wcol (((cfg2.win 2).blk t).view.emb y) k := by
    funext a; apply Fin.ext
    match a with
    | ⟨0, _⟩ => show win2_1.index t (0 : Fin 2) * 128 + 1 * k.val = k.val; omega
    | ⟨1, _⟩ => show win2_1.index t (1 : Fin 2) * 32 + 1 * (y 1).val = win2_2.index t (1 : Fin 2) * 32 + 1 * (y 1).val; omega
  rw [← hl, ← hr]
  rfl

/-- An index of the output array is in point t's block iff each coordinate is in the block's range on its axis. -/
theorem mem_blk (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v68).slice (win2_2.rect t)).set ↔ _
  rw [View.set_slice_whole, Rect.mem_set_unit]
  exact Iff.rfl

/-- The ten blocks tile the rows: row r lies in the block of the point whose row block is r / 5000. -/
theorem cover (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- THE OUTPUT ARRAY after the region: the product of the left and right arrays as the region found them. -/
theorem final (c : Dev nD) : (dat2 V c).arrAt 2 cfg2.N = prod (V c main_v67) (V c main_arg6) :=
  (dat2 V c).arrAt_eq_of_cover 2 (prod (V c main_v67) (V c main_arg6)) (fun t _ => flushed_eq V c t) cover

end Cert.KernelIdeal.Rows2

end
-- ==== Proof.Chain.lean ====
/-
  The kernel's program at the ideal values, followed buffer by buffer through its host stretches and its three
  regions: what it leaves in the result array is the reference's own last stage function of the eight arguments.

  The kernel's @main and the reference's are the same host operations in the same order, except that where the
  reference has a matrix product the kernel has a region computing that product in row blocks. So the argument is a
  walk: at each boundary of @main, every buffer that is read later holds the reference's stage function, of that
  name, of the arguments as launched. A host stretch preserves this because it applies the very operations that
  define the later stage functions from the earlier ones; a region preserves it because it leaves the product of
  the two arrays it was given and touches nothing else.
-/
import proofs.«111012_j35124242547073_1_alg».proof.Proof.Gen.KernelIdeal.Frame
import proofs.«111012_j35124242547073_1_alg».proof.Proof.RefRead
import proofs.«111012_j35124242547073_1_alg».proof.Proof.Rows0
import proofs.«111012_j35124242547073_1_alg».proof.Proof.Rows1
import proofs.«111012_j35124242547073_1_alg».proof.Proof.Rows2
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## What each host stretch writes

Each stretch is a line of operations, each writing one buffer; the lists name those buffers in order. -/

abbrev wr0 : List (Ref sig .tc) :=
  [main_v0, main_v1, main_v2, main_v3, main_v4, main_v5, main_v6, main_cst, main_v7, main_cst_0, main_v8, main_v9,
   main_v10, main_cst_1, main_v11, main_v12, main_v13, main_cst_2, main_v14, main_v15, main_cst_3]
theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

abbrev wr0_1 : List (Ref sig .tc) :=
  [main_call0_v0, main_call0_v1, main_v16]
theorem wr0_1_sub : (hostOps0_1 : List (HloOp τ sig (Elt Ideal))).Forall fun op => op.writes ⊆ (wr0_1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

abbrev wr0_2 : List (Ref sig .tc) :=
  [main_c, main_v17, main_v18, main_c_4, main_v19, main_v20, main_v21, main_v22, main_v23, main_c_5, main_v24,
   main_v25, main_c_6, main_v26, main_v27, main_v28, main_v29, main_v30, main_v31]
theorem wr0_2_sub : (hostOps0_2 : List (HloOp τ sig (Elt Ideal))).Forall fun op => op.writes ⊆ (wr0_2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

abbrev wr1 : List (Ref sig .tc) :=
  [main_c_7, main_v33, main_v34, main_c_8, main_v35, main_v36, main_v37, main_v38, main_v39, main_v40, main_v41,
   main_v42, main_cst_9, main_v43, main_v44, main_v45, main_v46, main_v47, main_v48]
theorem wr1_sub : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

abbrev wr1_1 : List (Ref sig .tc) :=
  [main_call1_cst, main_call1_v0, main_v49]
theorem wr1_1_sub : (hostOps1_1 : List (HloOp τ sig (Elt Ideal))).Forall fun op => op.writes ⊆ (wr1_1.map (Proc.devRef (τ := τ) .tc)).toFinset := by
  simp only [hostOps1_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

abbrev wr2 : List (Ref sig .tc) :=
  [main_c_10, main_v51, main_v52, main_c_11, main_v53, main_v54, main_v55, main_v56, main_v57, main_v58, main_v59,
   main_v60, main_cst_12, main_v61, main_v62, main_v63, main_v64, main_v65, main_v66]
theorem wr2_sub : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

abbrev wr2_1 : List (Ref sig .tc) :=
  [main_call2_cst, main_call2_v0, main_v67]
theorem wr2_1_sub : (hostOps2_1 : List (HloOp τ sig (Elt Ideal))).Forall fun op => op.writes ⊆ (wr2_1.map (Proc.devRef (τ := τ) .tc)).toFinset := by
  simp only [hostOps2_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## Carrying a buffer across stretches

A buffer that a stretch does not write holds after it what it held before. -/

section Carry

variable (m : (ℓ : Loc nD τ sig) → Buf (Elt Ideal) ℓ) (ρ : Dev nD → PrngReg) (c : Dev nD)

/-- Up to region 0's entry: a buffer none of the first three stretches writes is as launched. -/
theorem W3_launch (b : Ref sig .tc) (h0 : b ∉ wr0) (h1 : b ∉ wr0_1) (h2 : b ∉ wr0_2) :
    W3 (F := Ideal) m ρ c (Proc.devRef .tc b) = m ((c.tc : Thread nD τ).loc b) :=
  (StableHlo.after_of_writes_sub hostOps0_2 _ wr0_2_sub h2).trans <|
    (StableHlo.after_of_writes_sub hostOps0_1 _ wr0_1_sub h1).trans <|
      (StableHlo.after_of_writes_sub hostOps0 _ wr0_sub h0).trans rfl

/-- From region 0's exit to region 1's entry. -/
theorem W6_keep (b : Ref sig .tc) (h0 : b ∉ wr1) (h1 : b ∉ wr1_1) :
    W6 (F := Ideal) m ρ c (Proc.devRef .tc b) = W4 (F := Ideal) m ρ c (Proc.devRef .tc b) :=
  (StableHlo.after_of_writes_sub hostOps1_1 _ wr1_1_sub h1).trans
    (StableHlo.after_of_writes_sub hostOps1 _ wr1_sub h0)

/-- From region 1's exit to region 2's entry. -/
theorem W9_keep (b : Ref sig .tc) (h0 : b ∉ wr2) (h1 : b ∉ wr2_1) :
    W9 (F := Ideal) m ρ c (Proc.devRef .tc b) = W7 (F := Ideal) m ρ c (Proc.devRef .tc b) :=
  (StableHlo.after_of_writes_sub hostOps2_1 _ wr2_1_sub h1).trans
    (StableHlo.after_of_writes_sub hostOps2 _ wr2_sub h0)

end Carry

/-! ## The stretches of a called function, in the plain builders

The three-operation stretches (the masking of the inverse square root, and the two cuts at zero) are printed over
typed references, whose transports between a value's type and its buffer's type are identities here; restated in
the plain builders they are the same lists. -/

theorem hostOps0_1_plain : (hostOps0_1 : List (HloOp τ sig (Elt Ideal)))
    = [ StableHlo.unary main_cst_3 main_call0_v0 (id : (⟨S_, .f32⟩ : BufTy).Contents (Elt Ideal) → (⟨S_, .f32⟩ : BufTy).Contents (Elt Ideal)),
        StableHlo.unary main_call0_v0 main_call0_v1 (broadcastInDim S50000 ![] bcast_S_S50000 : (⟨S_, .f32⟩ : BufTy).Contents (Elt Ideal) → (⟨S50000, .f32⟩ : BufTy).Contents (Elt Ideal)),
        StableHlo.ternary main_v12 main_v15 main_call0_v1 main_v16 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

theorem hostOps1_1_plain : (hostOps1_1 : List (HloOp τ sig (Elt Ideal)))
    = [ StableHlo.nullary main_call1_cst (constant (F := Ideal) S_ .f32 0x00000000#32),
        StableHlo.unary main_call1_cst main_call1_v0 (broadcastInDim S50000x256 ![] bcast_S_S50000x256 : (⟨S_, .f32⟩ : BufTy).Contents (Elt Ideal) → (⟨S50000x256, .f32⟩ : BufTy).Contents (Elt Ideal)),
        StableHlo.binary main_v48 main_call1_v0 main_v49 (maximumf (F := Ideal) (s := S50000x256) (φ := .f32) : (⟨S50000x256, .f32⟩ : BufTy).Contents (Elt Ideal) → (⟨S50000x256, .f32⟩ : BufTy).Contents (Elt Ideal) → (⟨S50000x256, .f32⟩ : BufTy).Contents (Elt Ideal)) ] := rfl

theorem hostOps2_1_plain : (hostOps2_1 : List (HloOp τ sig (Elt Ideal)))
    = [ StableHlo.nullary main_call2_cst (constant (F := Ideal) S_ .f32 0x00000000#32),
        StableHlo.unary main_call2_cst main_call2_v0 (broadcastInDim S50000x128 ![] bcast_S_S50000x128 : (⟨S_, .f32⟩ : BufTy).Contents (Elt Ideal) → (⟨S50000x128, .f32⟩ : BufTy).Contents (Elt Ideal)),
        StableHlo.binary main_v66 main_call2_v0 main_v67 (maximumf (F := Ideal) (s := S50000x128) (φ := .f32) : (⟨S50000x128, .f32⟩ : BufTy).Contents (Elt Ideal) → (⟨S50000x128, .f32⟩ : BufTy).Contents (Elt Ideal) → (⟨S50000x128, .f32⟩ : BufTy).Contents (Elt Ideal)) ] := rfl

/-! ## The host stretches, over any entry contents

Each stretch's result buffer, computed from an arbitrary valuation at the stretch's entry: the operations of the
stretch applied, in order, to the entry contents of the buffers it reads. The reference's stage functions are the
same operations applied to its own earlier stages, so once the buffers read are known to hold those stages the two
sides are one term. In each lemma the buffers read are then made variables, so that the two sides are compared as
compositions of the operations only. -/

section Stretch

open Cert.ReferenceIdeal.ReadP

variable (V : Valuation τ sig (Elt Ideal))

/-! ### The first stretch: edge lists, in-degrees -/

/-- The source list: the first row of the edge array followed by the self loops 0 … 49999. -/
theorem st0_src : StableHlo.after hostOps0 V (Proc.devRef .tc main_v3)
    = val_main_v3 (F := Ideal) (V (Proc.devRef .tc main_arg1)) := by
  after_results
  rfl

/-- The destination list: the second row of the edge array followed by the self loops. -/
theorem st0_dst : StableHlo.after hostOps0 V (Proc.devRef .tc main_v6)
    = val_main_v6 (F := Ideal) (V (Proc.devRef .tc main_arg1)) := by
  after_results
  rfl

/-- Where the in-degree (ones summed by destination) is positive. -/
theorem st0_pos : StableHlo.after hostOps0 V (Proc.devRef .tc main_v12)
    = val_main_v12 (F := Ideal) (V (Proc.devRef .tc main_arg1)) := by
  after_results
  simp only [val_main_v12, val_main_v11, val_main_cst_1, val_main_v10, val_main_v9, val_main_v8, val_main_cst_0,
    val_main_v7, val_main_cst, val_main_v6, val_main_v5, val_main_v4, val_main_v0]
  generalize V (Proc.devRef .tc main_arg1) = E
  rfl

/-- One over the square root of the in-degree. -/
theorem st0_inv : StableHlo.after hostOps0 V (Proc.devRef .tc main_v15)
    = val_main_v15 (F := Ideal) (V (Proc.devRef .tc main_arg1)) := by
  after_results
  simp only [val_main_v15, val_main_v14, val_main_cst_2, val_main_v13, val_main_v10, val_main_v9, val_main_v8,
    val_main_cst_0, val_main_v7, val_main_cst, val_main_v6, val_main_v5, val_main_v4, val_main_v0]
  generalize V (Proc.devRef .tc main_arg1) = E
  rfl

/-- The zero the masking puts where the in-degree is not positive. -/
theorem st0_zero : StableHlo.after hostOps0 V (Proc.devRef .tc main_cst_3) = val_main_cst_3 (F := Ideal) := by
  after_results
  rfl

/-! ### The second stretch: the inverse square root masked to the nodes of positive in-degree -/

theorem st0_norm
    (x1 : (⟨Cert.ReferenceIdeal.S2x800000, .i32⟩ : BufTy).Contents (Elt Ideal))
    (hc : V (Proc.devRef .tc main_v12) = val_main_v12 (F := Ideal) x1)
    (hr : V (Proc.devRef .tc main_v15) = val_main_v15 (F := Ideal) x1)
    (hz : V (Proc.devRef .tc main_cst_3) = val_main_cst_3 (F := Ideal)) :
    StableHlo.after hostOps0_1 V (Proc.devRef .tc main_v16) = val_main_v16 (F := Ideal) x1 := by
  rw [hostOps0_1_plain]
  after_results_simp
  rw [hc, hr, hz]
  simp only [val_main_v16, val_main_call0_v1, val_main_call0_v0]

/-! ### The third stretch: an edge's weight is the masked inverse root at its source times that at its destination -/

theorem st0_wgt
    (x1 : (⟨Cert.ReferenceIdeal.S2x800000, .i32⟩ : BufTy).Contents (Elt Ideal))
    (hs : V (Proc.devRef .tc main_v3) = val_main_v3 (F := Ideal) x1)
    (hd : V (Proc.devRef .tc main_v6) = val_main_v6 (F := Ideal) x1)
    (hn : V (Proc.devRef .tc main_v16) = val_main_v16 (F := Ideal) x1) :
    StableHlo.after hostOps0_2 V (Proc.devRef .tc main_v31) = val_main_v31 (F := Ideal) x1 := by
  after_results_simp
  rw [hs, hd, hn]
  simp only [val_main_v31, val_main_v30, val_main_v29, val_main_v28, val_main_v27, val_main_v26, val_main_v25,
    val_main_v24, val_main_c_6, val_main_c_5, val_main_v23, val_main_v22, val_main_v21, val_main_v20, val_main_v19,
    val_main_v18, val_main_v17, val_main_c_4, val_main_c]
  generalize val_main_v3 (F := Ideal) x1 = S
  generalize val_main_v6 (F := Ideal) x1 = D
  generalize val_main_v16 (F := Ideal) x1 = N
  rfl

/-! ### The stretches after each product -/

/-- Layer 1 after its product: rows gathered by source, scaled by the edge weights, summed by destination, the
    bias added, negatives cut to zero. -/
theorem st1
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S128x256, .f32⟩ : BufTy).Contents (Elt Ideal))
    (x3 : (⟨Cert.ReferenceIdeal.S256, .f32⟩ : BufTy).Contents (Elt Ideal))
    (hp : V (Proc.devRef .tc main_v32) = val_main_v32 (F := Ideal) x0 x2)
    (hs : V (Proc.devRef .tc main_v3) = val_main_v3 (F := Ideal) x1)
    (hd : V (Proc.devRef .tc main_v6) = val_main_v6 (F := Ideal) x1)
    (hw : V (Proc.devRef .tc main_v31) = val_main_v31 (F := Ideal) x1)
    (hb : V (Proc.devRef .tc main_arg3) = x3) :
    StableHlo.after hostOps1_1 (StableHlo.after hostOps1 V) (Proc.devRef .tc main_v49)
      = val_main_v49 (F := Ideal) x0 x1 x2 x3 := by
  rw [hostOps1_1_plain]
  after_results_simp
  rw [hp, hs, hd, hw, hb]
  simp only [val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_c_7, val_main_c_8, val_main_cst_9, val_main_call1_cst, val_main_call1_v0]
  generalize val_main_v32 (F := Ideal) x0 x2 = P
  generalize val_main_v3 (F := Ideal) x1 = S
  generalize val_main_v6 (F := Ideal) x1 = D
  generalize val_main_v31 (F := Ideal) x1 = W
  rfl

/-- Layer 2 after its product: the same aggregation at width 128, its bias, the cut at zero. -/
theorem st2
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S128x256, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (hp : V (Proc.devRef .tc main_v50) = val_main_v50 (F := Ideal) x0 x1 x2 x3 x4)
    (hs : V (Proc.devRef .tc main_v3) = val_main_v3 (F := Ideal) x1)
    (hd : V (Proc.devRef .tc main_v6) = val_main_v6 (F := Ideal) x1)
    (hw : V (Proc.devRef .tc main_v31) = val_main_v31 (F := Ideal) x1)
    (hb : V (Proc.devRef .tc main_arg5) = x5) :
    StableHlo.after hostOps2_1 (StableHlo.after hostOps2 V) (Proc.devRef .tc main_v67)
      = val_main_v67 (F := Ideal) x0 x1 x2 x3 x4 x5 := by
  rw [hostOps2_1_plain]
  after_results_simp
  rw [hp, hs, hd, hw, hb]
  simp only [val_main_v67, val_main_v66, val_main_v65, val_main_v64, val_main_v63, val_main_v62, val_main_v61,
    val_main_v60, val_main_v59, val_main_v58, val_main_v57, val_main_v56, val_main_v55, val_main_v54, val_main_v53,
    val_main_v52, val_main_v51, val_main_c_10, val_main_c_11, val_main_cst_12, val_main_call2_cst, val_main_call2_v0]
  generalize val_main_v50 (F := Ideal) x0 x1 x2 x3 x4 = P
  generalize val_main_v3 (F := Ideal) x1 = S
  generalize val_main_v6 (F := Ideal) x1 = D
  generalize val_main_v31 (F := Ideal) x1 = W
  rfl

/-- Layer 3 after its product: the same aggregation at width 32 and its bias; no cut. -/
theorem st3
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S128x256, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S128x32, .f32⟩ : BufTy).Contents (Elt Ideal))
    (x7 : (⟨Cert.ReferenceIdeal.S32, .f32⟩ : BufTy).Contents (Elt Ideal))
    (hp : V (Proc.devRef .tc main_v68) = val_main_v68 (F := Ideal) x0 x1 x2 x3 x4 x5 x6)
    (hs : V (Proc.devRef .tc main_v3) = val_main_v3 (F := Ideal) x1)
    (hd : V (Proc.devRef .tc main_v6) = val_main_v6 (F := Ideal) x1)
    (hw : V (Proc.devRef .tc main_v31) = val_main_v31 (F := Ideal) x1)
    (hb : V (Proc.devRef .tc main_arg7) = x7) :
    StableHlo.after hostOps3 V (Proc.devRef .tc main_v84)
      = val_main_v84 (F := Ideal) x0 x1 x2 x3 x4 x5 x6 x7 := by
  after_results_simp
  rw [hp, hs, hd, hw, hb]
  simp only [val_main_v84, val_main_v83, val_main_v82, val_main_v81, val_main_v80, val_main_v79, val_main_v78,
    val_main_v77, val_main_v76, val_main_v75, val_main_v74, val_main_v73, val_main_v72, val_main_v71, val_main_v70,
    val_main_v69, val_main_c_13, val_main_c_14, val_main_cst_15]
  generalize val_main_v68 (F := Ideal) x0 x1 x2 x3 x4 x5 x6 = P
  generalize val_main_v3 (F := Ideal) x1 = S
  generalize val_main_v6 (F := Ideal) x1 = D
  generalize val_main_v31 (F := Ideal) x1 = W
  rfl

end Stretch

/-! ## The run

The fold through @main, boundary by boundary: each buffer, where it is next read, holds the reference's stage
function of the arguments as launched. -/

section Run

open Cert.ReferenceIdeal.ReadP

variable (m : (ℓ : Loc nD τ sig) → Buf (Elt Ideal) ℓ) (ρ : Dev nD → PrngReg) (c : Dev nD)

/-- Buffer `b` of the core as launched. -/
abbrev inp (b : Ref sig .tc) : Buf (Elt Ideal) ((c.tc : Thread nD τ).loc b) := m ((c.tc : Thread nD τ).loc b)

/-! ### The edge lists and weights, at region 0's entry -/

theorem src2 : W2 (F := Ideal) m ρ c (Proc.devRef .tc main_v3) = val_main_v3 (F := Ideal) (inp m c main_arg1) :=
  (StableHlo.after_of_writes_sub hostOps0_1 _ wr0_1_sub (by decide)).trans (st0_src (W0 m ρ c))
theorem dst2 : W2 (F := Ideal) m ρ c (Proc.devRef .tc main_v6) = val_main_v6 (F := Ideal) (inp m c main_arg1) :=
  (StableHlo.after_of_writes_sub hostOps0_1 _ wr0_1_sub (by decide)).trans (st0_dst (W0 m ρ c))
theorem nrm2 : W2 (F := Ideal) m ρ c (Proc.devRef .tc main_v16) = val_main_v16 (F := Ideal) (inp m c main_arg1) :=
  st0_norm (W1 m ρ c) _ (st0_pos (W0 m ρ c)) (st0_inv (W0 m ρ c)) (st0_zero (W0 m ρ c))

theorem src3 : W3 (F := Ideal) m ρ c (Proc.devRef .tc main_v3) = val_main_v3 (F := Ideal) (inp m c main_arg1) :=
  (StableHlo.after_of_writes_sub hostOps0_2 _ wr0_2_sub (by decide)).trans (src2 m ρ c)
theorem dst3 : W3 (F := Ideal) m ρ c (Proc.devRef .tc main_v6) = val_main_v6 (F := Ideal) (inp m c main_arg1) :=
  (StableHlo.after_of_writes_sub hostOps0_2 _ wr0_2_sub (by decide)).trans (dst2 m ρ c)
theorem wgt3 : W3 (F := Ideal) m ρ c (Proc.devRef .tc main_v31) = val_main_v31 (F := Ideal) (inp m c main_arg1) :=
  st0_wgt (W2 m ρ c) _ (src2 m ρ c) (dst2 m ρ c) (nrm2 m ρ c)

/-! ### Carried to the later boundaries

No later stretch writes the edge lists, the weights or an argument, and no region holds them among its arrays. -/

/-- A buffer that is none of region 0's arrays, at its exit. -/
theorem at4 (b : Ref sig .tc) (h0 : ∀ w, Pipeline.arrRef spec0 w ≠ b) :
    W4 (F := Ideal) m ρ c (Proc.devRef .tc b) = W3 (F := Ideal) m ρ c (Proc.devRef .tc b) :=
  W4_of_ne m ρ c b h0
/-- A buffer layer 1's stretches do not write, none of the first two regions' arrays, at region 1's exit. -/
theorem at7 (b : Ref sig .tc) (h0 : ∀ w, Pipeline.arrRef spec0 w ≠ b) (h1 : ∀ w, Pipeline.arrRef spec1 w ≠ b)
    (g0 : b ∉ wr1) (g1 : b ∉ wr1_1) :
    W7 (F := Ideal) m ρ c (Proc.devRef .tc b) = W3 (F := Ideal) m ρ c (Proc.devRef .tc b) :=
  (W7_of_ne m ρ c b h1).trans ((W6_keep m ρ c b g0 g1).trans (W4_of_ne m ρ c b h0))
/-- The same through layer 2's stretches and region 2. -/
theorem at10 (b : Ref sig .tc) (h0 : ∀ w, Pipeline.arrRef spec0 w ≠ b) (h1 : ∀ w, Pipeline.arrRef spec1 w ≠ b)
    (h2 : ∀ w, Pipeline.arrRef spec2 w ≠ b) (g0 : b ∉ wr1) (g1 : b ∉ wr1_1) (g2 : b ∉ wr2) (g3 : b ∉ wr2_1) :
    W10 (F := Ideal) m ρ c (Proc.devRef .tc b) = W3 (F := Ideal) m ρ c (Proc.devRef .tc b) :=
  (W10_of_ne m ρ c b h2).trans ((W9_keep m ρ c b g2 g3).trans (at7 m ρ c b h0 h1 g0 g1))

/-! ### Layer 1 -/

/-- Region 0 leaves the product of the first and third arguments. -/
theorem prod1 : W4 (F := Ideal) m ρ c (Proc.devRef .tc main_v32)
    = val_main_v32 (F := Ideal) (inp m c main_arg0) (inp m c main_arg2) := by
  refine (W4_arr m ρ c 2).trans ((Rows0.final (V3 m ρ) c).trans ?_)
  show Rows0.prod (W3 (F := Ideal) m ρ c (Proc.devRef .tc main_arg0)) (W3 (F := Ideal) m ρ c (Proc.devRef .tc main_arg2)) = _
  rw [W3_launch m ρ c main_arg0 (by decide) (by decide) (by decide),
    W3_launch m ρ c main_arg2 (by decide) (by decide) (by decide)]
  rfl

theorem act1 : W6 (F := Ideal) m ρ c (Proc.devRef .tc main_v49)
    = val_main_v49 (F := Ideal) (inp m c main_arg0) (inp m c main_arg1) (inp m c main_arg2) (inp m c main_arg3) :=
  st1 (W4 m ρ c) _ _ _ _ (prod1 m ρ c)
    ((at4 m ρ c main_v3 (by decide)).trans (src3 m ρ c))
    ((at4 m ρ c main_v6 (by decide)).trans (dst3 m ρ c))
    ((at4 m ρ c main_v31 (by decide)).trans (wgt3 m ρ c))
    ((at4 m ρ c main_arg3 (by decide)).trans (W3_launch m ρ c main_arg3 (by decide) (by decide) (by decide)))

/-! ### Layer 2 -/

/-- Region 1 leaves the product of layer 1's activations and the fifth argument. -/
theorem prod2 : W7 (F := Ideal) m ρ c (Proc.devRef .tc main_v50)
    = val_main_v50 (F := Ideal) (inp m c main_arg0) (inp m c main_arg1) (inp m c main_arg2) (inp m c main_arg3)
        (inp m c main_arg4) := by
  refine (W7_arr m ρ c 2).trans ((Rows1.final (V6 m ρ) c).trans ?_)
  show Rows1.prod (W6 (F := Ideal) m ρ c (Proc.devRef .tc main_v49)) (W6 (F := Ideal) m ρ c (Proc.devRef .tc main_arg4)) = _
  rw [act1 m ρ c, W6_keep m ρ c main_arg4 (by decide) (by decide), at4 m ρ c main_arg4 (by decide),
    W3_launch m ρ c main_arg4 (by decide) (by decide) (by decide)]
  rfl

theorem act2 : W9 (F := Ideal) m ρ c (Proc.devRef .tc main_v67)
    = val_main_v67 (F := Ideal) (inp m c main_arg0) (inp m c main_arg1) (inp m c main_arg2) (inp m c main_arg3)
        (inp m c main_arg4) (inp m c main_arg5) :=
  st2 (W7 m ρ c) _ _ _ _ _ _ (prod2 m ρ c)
    ((at7 m ρ c main_v3 (by decide) (by decide) (by decide) (by decide)).trans (src3 m ρ c))
    ((at7 m ρ c main_v6 (by decide) (by decide) (by decide) (by decide)).trans (dst3 m ρ c))
    ((at7 m ρ c main_v31 (by decide) (by decide) (by decide) (by decide)).trans (wgt3 m ρ c))
    ((at7 m ρ c main_arg5 (by decide) (by decide) (by decide) (by decide)).trans
      (W3_launch m ρ c main_arg5 (by decide) (by decide) (by decide)))

/-! ### Layer 3 -/

/-- Region 2 leaves the product of layer 2's activations and the seventh argument. -/
theorem prod3 : W10 (F := Ideal) m ρ c (Proc.devRef .tc main_v68)
    = val_main_v68 (F := Ideal) (inp m c main_arg0) (inp m c main_arg1) (inp m c main_arg2) (inp m c main_arg3)
        (inp m c main_arg4) (inp m c main_arg5) (inp m c main_arg6) := by
  refine (W10_arr m ρ c 2).trans ((Rows2.final (V9 m ρ) c).trans ?_)
  show Rows2.prod (W9 (F := Ideal) m ρ c (Proc.devRef .tc main_v67)) (W9 (F := Ideal) m ρ c (Proc.devRef .tc main_arg6)) = _
  rw [act2 m ρ c, W9_keep m ρ c main_arg6 (by decide) (by decide),
    at7 m ρ c main_arg6 (by decide) (by decide) (by decide) (by decide),
    W3_launch m ρ c main_arg6 (by decide) (by decide) (by decide)]
  rfl

end Run

/-- The result array after the run is the reference's last stage of the arguments as launched. -/
theorem out_eq (m : (ℓ : Loc nD τ sig) → Buf (Elt Ideal) ℓ) (ρ : Dev nD → PrngReg) (c : Dev nD) :
    W11 (F := Ideal) m ρ c (Proc.devRef .tc main_v84)
      = Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  st3 (W10 m ρ c) _ _ _ _ _ _ _ _ (prod3 m ρ c)
    ((at10 m ρ c main_v3 (by decide) (by decide) (by decide) (by decide) (by decide) (by decide) (by decide)).trans (src3 m ρ c))
    ((at10 m ρ c main_v6 (by decide) (by decide) (by decide) (by decide) (by decide) (by decide) (by decide)).trans (dst3 m ρ c))
    ((at10 m ρ c main_v31 (by decide) (by decide) (by decide) (by decide) (by decide) (by decide) (by decide)).trans (wgt3 m ρ c))
    ((at10 m ρ c main_arg7 (by decide) (by decide) (by decide) (by decide) (by decide) (by decide) (by decide)).trans
      (W3_launch m ρ c main_arg7 (by decide) (by decide) (by decide)))

end Cert.KernelIdeal.Chain

end
-- ==== Proof.lean ====
/-
  A three-layer graph convolution: per layer, a dense product with the layer's weights, then for every edge (the
  given ones and one self-loop per node) the source node's row scaled by the edge's symmetric normalisation is added
  into the destination node's row, the bias is added, and (but for the last layer) the negative part is cut off.
  The kernel's program and the reference are the same host operations, word for word, but for the three dense
  products: the reference contracts whole arrays on the host, the kernel does each product in a region of ten points,
  each multiplying one block of 5000 rows by the whole weight array into a zero accumulator with the factors rounded
  to bf16. On the extended reals that rounding is the identity and a row of a product depends only on that row of the
  left factor, so each region leaves the same array as the host's contraction (Proof/Rows0.lean, Rows1.lean,
  Rows2.lean); everything else is shared and is never opened: the kernel's result is the reference's own last stage
  function of the eight arguments (Proof/Chain.lean). No algebraic law beyond reading a sum at an index is used, so the
  precondition (finite inputs) is never opened either. The idealization rewrote nothing, so `preserves` is `True`.
-/
import proofs.«111012_j35124242547073_1_alg».proof.Defs
import proofs.«111012_j35124242547073_1_alg».proof.Proof.Gen.Kernel
import proofs.«111012_j35124242547073_1_alg».proof.Proof.Gen.Kernel.Skeleton
import proofs.«111012_j35124242547073_1_alg».proof.Proof.Gen.Kernel.Launch
import proofs.«111012_j35124242547073_1_alg».proof.Proof.Gen.Kernel.Points
import proofs.«111012_j35124242547073_1_alg».proof.Proof.Gen.Kernel.Frame
import proofs.«111012_j35124242547073_1_alg».proof.Proof.Gen.KernelIdeal
import proofs.«111012_j35124242547073_1_alg».proof.Proof.Gen.KernelIdeal.Skeleton
import proofs.«111012_j35124242547073_1_alg».proof.Proof.Gen.KernelIdeal.Launch
import proofs.«111012_j35124242547073_1_alg».proof.Proof.Gen.KernelIdeal.Points
import proofs.«111012_j35124242547073_1_alg».proof.Proof.Gen.KernelIdeal.Frame
import proofs.«111012_j35124242547073_1_alg».proof.Proof.Gen.ReferenceIdeal
import proofs.«111012_j35124242547073_1_alg».proof.Proof.Gen.Pre_finite_inputs
import proofs.«111012_j35124242547073_1_alg».proof.Proof.ValueRun
import proofs.«111012_j35124242547073_1_alg».proof.Proof.RefRun
import proofs.«111012_j35124242547073_1_alg».proof.Proof.RefRead
import proofs.«111012_j35124242547073_1_alg».proof.Proof.Chain
import Idealize.ShloMosaic.Adequacy
import Idealize.ShloMosaic.Init

noncomputable section

namespace Cert.Proof

open Idealize.ShloMosaic Idealize.SL.Sem

/-- The reference runs and keeps its arguments: its run with the result dropped. -/
theorem frame_ReferenceIdeal : Cert.frame_ReferenceIdeal := fun m ρ _ =>
  (θ_run Cert.ReferenceIdeal.defs _ _).mono (fun _ h c => (h c).2) (Cert.ReferenceIdeal.RunP.run (F := Ideal) m ρ)

/-- Both programs end with the result array at the reference's last stage function of the (agreeing) arguments. -/
theorem algebraic : Cert.algebraic_KernelIdeal_ReferenceIdeal := by
  intro m ρ m' ρ' _ hagree
  refine ⟨fun c => Cert.ReferenceIdeal.ReadP.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Chain.out_eq m ρ c), (h c).2⟩) (Cert.KernelIdeal.ValueRun.run m ρ)
  · refine (θ_run Cert.ReferenceIdeal.defs _ _).mono (fun _ h c => ⟨(h c).1.trans ?_, (h c).2⟩) (Cert.ReferenceIdeal.RunP.run (F := Ideal) m' ρ')
    rw [Cert.ReferenceIdeal.ReadP.val_main_v84_eq]
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ReferenceIdeal,
  trivial,
  algebraic⟩

end Cert.Proof

end
